-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4096x2048 .f32) (main_arg1 : FVec F S2048x2048 .f32) (main_arg2 : FVec F S2048 .f32) (main_arg3 : FVec F S2048 .f32) (main_arg4 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256x32x64 : Shape := ⟨3, ![256, 32, 64]⟩
abbrev S256x32 : Shape := ⟨2, ![256, 32]⟩
abbrev S256x32x1 : Shape := ⟨3, ![256, 32, 1]⟩

abbrev nBuf : Space → Nat
  | .hbm => 11
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S2048x2048_S2048x2048_1_0 : S2048x2048.Transposes [1, 0] S2048x2048
  bitsLt_bf16_f32 : FTy.bits .bf16 < FTy.bits .f32
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  shapeCasts_S256x2048_S256x32x64 : S256x2048.ShapeCasts S256x32x64
  reduces_S256x32x64_S256x32 : S256x32x64.Reduces [2] S256x32
  shapeCasts_S256x32_S256x32x1 : S256x32.ShapeCasts S256x32x1
  broadcasts_S256x32x1_S256x32x64 : S256x32x1.Broadcasts S256x32x64
  shapeCasts_S256x32x64_S256x2048 : S256x32x64.ShapeCasts S256x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S4096x2048.size a
  hwx0_5 : ∀ i : grid0.Coords, EltTy.bits .f32 = 32 ∨ (Rect.block (s := S4096x2048) S256x2048.size (cc0_transform_5 i) (hinb0_5 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S4096x32x64 : Shape := ⟨3, ![4096, 32, 64]⟩
abbrev S_ : Shape := ⟨0, ![]⟩
abbrev S4096x32 : Shape := ⟨2, ![4096, 32]⟩
abbrev S4096x32x1 : Shape := ⟨3, ![4096, 32, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S4096x2048, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x32x64, .f32⟩
  | .hbm, ⟨10, _⟩ => ⟨S_, .f32⟩
  | .hbm, ⟨11, _⟩ => ⟨S4096x32, .f32⟩
  | .hbm, ⟨12, _⟩ => ⟨S4096x32x1, .f32⟩
  | .hbm, ⟨13, _⟩ => ⟨S_, .f32⟩
  | .hbm, ⟨14, _⟩ => ⟨S4096x32x1, .f32⟩
  | .hbm, ⟨15, _⟩ => ⟨S4096x32x1, .f32⟩
  | .hbm, ⟨16, _⟩ => ⟨S4096x32x64, .f32⟩
  | .hbm, ⟨17, _⟩ => ⟨S_, .f32⟩
  | .hbm, ⟨18, _⟩ => ⟨S4096x32, .f32⟩
  | .hbm, ⟨19, _⟩ => ⟨S4096x32x1, .f32⟩
  | .hbm, ⟨20, _⟩ => ⟨S_, .f32⟩
  | .hbm, ⟨21, _⟩ => ⟨S4096x32x1, .f32⟩
  | .hbm, ⟨22, _⟩ => ⟨S4096x32x1, .f32⟩
  | .hbm, ⟨23, _⟩ => ⟨S4096x32x1, .f32⟩
  | .hbm, ⟨24, _⟩ => ⟨S4096x32x1, .f32⟩
  | .hbm, ⟨25, _⟩ => ⟨S4096x32x64, .f32⟩
  | .hbm, ⟨26, _⟩ => ⟨S4096x32x64, .f32⟩
  | .hbm, ⟨27, _⟩ => ⟨S_, .f32⟩
  | .hbm, ⟨28, _⟩ => ⟨S4096x32x1, .f32⟩
  | .hbm, ⟨29, _⟩ => ⟨S4096x32x1, .f32⟩
  | .hbm, ⟨30, _⟩ => ⟨S4096x32x1, .f32⟩
  | .hbm, ⟨31, _⟩ => ⟨S4096x32x64, .f32⟩
  | .hbm, ⟨32, _⟩ => ⟨S4096x32x64, .f32⟩
  | .hbm, ⟨33, _⟩ => ⟨S4096x2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v30 : Ref sig .tc := ⟨.hbm, 47, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  shapeCasts_S4096x2048_S4096x32x64 : S4096x2048.ShapeCasts S4096x32x64
  reducesTo_S4096x32x64_S4096x32_d2 : S4096x32x64.ReducesTo [2] S4096x32
  h_S_ : 0 < S_.numel
  bcast_S4096x32_S4096x32x1_0_1 : S4096x32.BroadcastsInDim S4096x32x1 (![0, 1] : Fin 2 → Fin S4096x32x1.rank)
  bcast_S_S4096x32x1 : S_.BroadcastsInDim S4096x32x1 (![] : Fin 0 → Fin S4096x32x1.rank)
  bcast_S4096x32x1_S4096x32x64_0_1_2 : S4096x32x1.BroadcastsInDim S4096x32x64 (![0, 1, 2] : Fin 3 → Fin S4096x32x64.rank)
  shapeCasts_S4096x32x64_S4096x2048 : S4096x32x64.ShapeCasts S4096x2048
  bcast_S_S4096x2048 : S_.BroadcastsInDim S4096x2048 (![] : Fin 0 → Fin S4096x2048.rank)
  dot_S4096x2048_S2048x2048_S4096x2048_1_1_0_0_n_n_wf : DotDims.WF S4096x2048 S2048x2048 S4096x2048 [1] [1] [0] [0] [] []

variable [Facts₀]

def dot_S4096x2048_S2048x2048_S4096x2048_1_1_0_0_n_n : DotDims S4096x2048 S2048x2048 S4096x2048 where
  lhsContracting := [1]
  rhsContracting := [1]
  lhsNonContracting := [0]
  rhsNonContracting := [0]
  lhsBatch := []
  rhsBatch := []
  wf := dot_S4096x2048_S2048x2048_S4096x2048_1_1_0_0_n_n_wf

class Facts : Prop extends Facts₀ where

variable [Facts]
-- ==== Proof.Spec.lean ====
/-
  The function both programs compute, stated once over plain coordinates.

  For a batch row `r`, the linear layer gives `y[o] = (∑ₖ x[r,k] · w[o,k]) + b[o]` for the 2048 output
  channels `o`. The channels are cut into 32 consecutive groups of 64 (channel `o` lies in group `o / 64`; the
  `j`-th channel of group `g` is `g · 64 + j`). Per group: the mean `μ = (∑ⱼ y) / 64`, the mean of squares
  `(∑ⱼ y²) / 64`, the variance `mean of squares − μ²`, and the factor `rsqrt (variance + ε)`. The result at `(r, o)` is
  `min 1 (max (−1) ((y[o] − μ) · factor · γ[o] + β[o]))`, with `μ` and the factor those of `o`'s group.

  Everything is on the extended reals; quotient and reciprocal square root are the ideal instance's. The four
  float literals stay as the words both programs print (64, ε = f32 (1e-5), −1, 1): the same word on both sides is
  never evaluated.
-/
import Idealize.ShloMosaic.PureOps.Ideal
import Idealize.ShloMosaic.Lib.ValueIdx

noncomputable section

namespace Cert.GroupNormSpec

open Idealize.ShloMosaic Idealize.ShloMosaic.ValueIdx

/-- The group size as both programs print it: the word of `64.0`. -/
abbrev groupSize : EReal := Ideal.ofBits .f32 0x42800000#32
/-- The variance's offset: the word of `f32 (1e-5)`. -/
abbrev epsilon : EReal := Ideal.ofBits .f32 0x3727C5AC#32
/-- The clamp's lower end: the word of `-1.0`. -/
abbrev clampLo : EReal := Ideal.ofBits .f32 0xBF800000#32
/-- The clamp's upper end: the word of `1.0`. -/
abbrev clampHi : EReal := Ideal.ofBits .f32 0x3F800000#32

/-- The `j`-th channel of group `g`. -/
def chan (g : Fin 32) (j : Fin 64) : Fin 2048 := ⟨g.val * 64 + j.val, by have := g.isLt; have := j.isLt; omega⟩
/-- The group a channel lies in. -/
def group (o : Fin 2048) : Fin 32 := ⟨o.val / 64, by have := o.isLt; omega⟩

/-- The linear layer on one row: `y[o] = (∑ₖ x[k] · w[o,k]) + b[o]`. -/
def linear (xr : Fin 2048 → EReal) (w : Fin 2048 → Fin 2048 → EReal) (b : Fin 2048 → EReal) (o : Fin 2048) : EReal :=
  (∑ k : Fin 2048, xr k * w o k) + b o

/-- A group's mean. -/
def mean (y : Fin 2048 → EReal) (g : Fin 32) : EReal := Ideal.div (∑ j : Fin 64, y (chan g j)) groupSize
/-- A group's mean of squares. -/
def meanSq (y : Fin 2048 → EReal) (g : Fin 32) : EReal := Ideal.div (∑ j : Fin 64, y (chan g j) * y (chan g j)) groupSize
/-- The normalizing factor of a group: `rsqrt (E[y²] − E[y]² + ε)`. -/
def invStd (y : Fin 2048 → EReal) (g : Fin 32) : EReal := Ideal.rsqrt (meanSq y g - mean y g * mean y g + epsilon)

/-- One row normalized group by group, scaled, shifted and clamped to `[-1, 1]`. -/
def normClamp (y γ β : Fin 2048 → EReal) (o : Fin 2048) : EReal :=
  min clampHi (max clampLo ((y o - mean y (group o)) * invStd y (group o) * γ o + β o))

/-- The whole result, index by index, from the five argument arrays. -/
def result (x : (⟨2, ![4096, 2048]⟩ : Shape).Idx → EReal) (w : (⟨2, ![2048, 2048]⟩ : Shape).Idx → EReal)
    (b γ β : (⟨1, ![2048]⟩ : Shape).Idx → EReal) : (⟨2, ![4096, 2048]⟩ : Shape).Idx → EReal := fun i =>
  normClamp (linear (fun k => x (ix2 (i 0) k)) (fun o k => w (ix2 o k)) (fun o => b (ix1 o)))
    (fun o => γ (ix1 o)) (fun o => β (ix1 o)) (i 1)

/-- A channel is the `o % 64`-th of its group. -/
theorem chan_group (o : Fin 2048) : chan (group o) ⟨o.val % 64, Nat.mod_lt _ (by decide)⟩ = o :=
  Fin.ext (by show o.val / 64 * 64 + o.val % 64 = o.val; omega)

/-- The group of the `j`-th channel of group `g` is `g`. -/
theorem group_chan (g : Fin 32) (j : Fin 64) : group (chan g j) = g :=
  Fin.ext (by show (g.val * 64 + j.val) / 64 = g.val; have := j.isLt; omega)

end Cert.GroupNormSpec

end
-- ==== Proof.BlockValue.lean ====
/-
  One grid point of the kernel: its body's value on a block of 256 rows, read at an entry.

  The body holds 256 rows of `x` (f32, narrowed to bf16: the identity on extended reals), the whole transposed
  weight `wᵀ` as a [2048, 2048] block and the three parameter vectors as [1, 2048] rows. Row `p` of the block:
  the matrix product into a zero accumulator at `(p, o)` is `∑ₖ x[p,k] · wᵀ[k,o]`, plus the broadcast bias it is the
  linear layer's `Y p o`; cast to [256, 32, 64] entry `(p, g, j)` is channel `g · 64 + j`; the two lane sums over
  the last axis, kept with a unit axis and divided by the word of 64, are the group's mean and mean of squares; the
  reciprocal square root of their difference plus ε is the group's factor; `(y − μ) · factor` cast back to
  [256, 2048] reads group `o / 64` at position `o % 64`, channel `o` again; then scale, shift, and the clamp as
  `min 1 (max (−1) ·)`. So entry `(p, o)` of the body's value is the specified function of row `p`.
-/
import proofs.«162899_j1580547965295_1_alg».proof.Proof.Gen.KernelIdeal.Skeleton
import proofs.«162899_j1580547965295_1_alg».proof.Proof.Spec
import Idealize.ShloMosaic.PureOps.Ideal.Laws
import Idealize.ShloMosaic.Lib.Pipeline.Value
import Idealize.ShloMosaic.Lib.ValueLayout

noncomputable section

namespace Cert.KernelIdeal.BlockValue

open Cert.KernelIdeal Cert.KernelIdeal.Gen Idealize.ShloMosaic Idealize.ShloMosaic.ValueIdx Cert.GroupNormSpec

/-! ## Layout steps of the body read at an index -/

/-- The only index of a unit axis. -/
abbrev u0 : Fin 1 := 0

/-- A [256, 32] array given a trailing unit axis reads, at `(p, g, 0)`, its entry `(p, g)`. -/
theorem keepLast_at {α : Type} (x : S256x32.Idx → α) (h : S256x32.ShapeCasts S256x32x1) (p : Fin 256) (g : Fin 32) :
    shapeCast S256x32x1 x h (ix3 p g u0) = x (ix2 p g) :=
  shapeCast_apply x h (ix3 p g u0) (ix2 p g) (by
    rw [Shape.rowMajor_val_two, Shape.rowMajor_val_three]
    show p.val * 32 + g.val = (p.val * 32 + g.val) * 1 + 0
    omega)

/-- A [256, 32, 1] array broadcast along its unit axis reads, at `(p, g, j)`, its entry `(p, g, 0)`. -/
theorem spreadLast_at {α : Type} (x : S256x32x1.Idx → α) (h : S256x32x1.Broadcasts S256x32x64) (p : Fin 256) (g : Fin 32)
    (j : Fin 64) : broadcastTo S256x32x64 x h (ix3 p g j) = x (ix3 p g u0) :=
  broadcastTo_apply x h (ix3 p g j) (ix3 p g u0) (fun a => match a with
    | ⟨0, _⟩ => by show p.val = if (256 : Nat) = 1 then 0 else p.val; rw [if_neg (by decide)]
    | ⟨1, _⟩ => by show g.val = if (32 : Nat) = 1 then 0 else g.val; rw [if_neg (by decide)]
    | ⟨2, _⟩ => by show 0 = if (1 : Nat) = 1 then 0 else j.val; rw [if_pos rfl])

/-- A [256, 2048] array cast to [256, 32, 64] reads, at `(p, g, j)`, its entry `(p, g · 64 + j)`. -/
theorem toGroups_at {α : Type} (x : S256x2048.Idx → α) (h : S256x2048.ShapeCasts S256x32x64) (p : Fin 256) (g : Fin 32)
    (j : Fin 64) : shapeCast S256x32x64 x h (ix3 p g j) = x (ix2 p (chan g j)) :=
  shapeCast_apply x h (ix3 p g j) (ix2 p (chan g j)) (by
    rw [Shape.rowMajor_val_two, Shape.rowMajor_val_three]
    show p.val * 2048 + (g.val * 64 + j.val) = (p.val * 32 + g.val) * 64 + j.val
    omega)

/-- A [256, 32, 64] array cast to [256, 2048] reads, at `(p, o)`, its entry `(p, o / 64, o % 64)`. -/
theorem fromGroups_at {α : Type} (x : S256x32x64.Idx → α) (h : S256x32x64.ShapeCasts S256x2048) (p : Fin 256) (o : Fin 2048) :
    shapeCast S256x2048 x h (ix2 p o) = x (ix3 p (group o) ⟨o.val % 64, Nat.mod_lt _ (by decide)⟩) :=
  shapeCast_apply x h (ix2 p o) (ix3 p (group o) ⟨o.val % 64, Nat.mod_lt _ (by decide)⟩) (by
    rw [Shape.rowMajor_val_two, Shape.rowMajor_val_three]
    show (p.val * 32 + o.val / 64) * 64 + o.val % 64 = p.val * 2048 + o.val
    omega)

/-- The lane sum over the last axis of a [256, 32, 64] array at `(p, g)`: the sum of its entries `(p, g, j)`. -/
theorem laneSum_at (x : FVec Ideal S256x32x64 .f32) (h : S256x32x64.Reduces [2] S256x32)
    (hφ : FKind.Formats .f32) (hacc : (0x00000000#32 : BitVec (FTy.bits .f32)) = FKind.add.neutral .f32 hφ) (p : Fin 256) (g : Fin 32) :
    multiReduction .add [2] S256x32 x 0x00000000#32 h hφ hacc (ix2 p g) = ∑ j : Fin 64, x (ix3 p g j) := by
  refine (Ideal.multiReduction_add_single x 0x00000000#32 h hφ hacc (ix2 p g)).trans ?_
  refine Finset.sum_congr rfl fun j _ => ?_
  exact congrArg x (funext fun a => Fin.ext (by match a with | ⟨0, _⟩ => rfl | ⟨1, _⟩ => rfl | ⟨2, _⟩ => rfl))

/-! ## The matrix product at an entry -/

theorem lhs_axis0 (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem lhs_axis1 (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q
theorem rhs_axis0 (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q
theorem rhs_axis1 (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- `a · b` into a zero accumulator at `(p, o)`: the sum over `k` of `a[p,k] · b[k,o]`. -/
theorem product_at (a : FVec Ideal S256x2048 .bf16) (b : FVec Ideal S2048x2048 .bf16) (p : Fin 256) (o : Fin 2048) :
    matmul dot_S256x2048_S2048x2048_S256x2048_1_0_0_1_n_n none a b (constant S256x2048 .f32 0x00000000#32) (ix2 p o)
      = ∑ k : Fin 2048, a (ix2 p k) * b (ix2 k o) := by
  simp only [matmul]
  rw [Ideal.matmul_constant_zero_apply, ← Equiv.sum_comp (ValueIdx.contrEquiv1 dot_S256x2048_S2048x2048_S256x2048_1_0_0_1_n_n 2048 rfl rfl).symm]
  refine Finset.sum_congr rfl fun k _ => ?_
  have hk := ValueIdx.contrEquiv1_symm_val dot_S256x2048_S2048x2048_S256x2048_1_0_0_1_n_n 2048 rfl rfl k
  have el : dot_S256x2048_S2048x2048_S256x2048_1_0_0_1_n_n.lhsIdx (ix2 p o) ((ValueIdx.contrEquiv1 dot_S256x2048_S2048x2048_S256x2048_1_0_0_1_n_n 2048 rfl rfl).symm k) = ix2 p k := funext fun c => Fin.ext (by
    match c with
    | ⟨0, _⟩ => exact lhs_axis0 _ _
    | ⟨1, _⟩ => exact (lhs_axis1 _ _).trans hk)
  have er : dot_S256x2048_S2048x2048_S256x2048_1_0_0_1_n_n.rhsIdx (ix2 p o) ((ValueIdx.contrEquiv1 dot_S256x2048_S2048x2048_S256x2048_1_0_0_1_n_n 2048 rfl rfl).symm k) = ix2 k o := funext fun c => Fin.ext (by
    match c with
    | ⟨0, _⟩ => exact (rhs_axis0 _ _).trans hk
    | ⟨1, _⟩ => exact rhs_axis1 _ _)
  rw [el, er]

/-! ## The body's stages on one block -/

variable (v0 : FVec Ideal S256x2048 .f32) (v2 : FVec Ideal S2048x2048 .bf16) (v5 v29 v33 : FVec Ideal S1x2048 .f32)

/-- Row `p` of the linear layer's output, from the block of `x`, the transposed weight and the bias row. -/
abbrev Y (p : Fin 256) : Fin 2048 → EReal :=
  linear (fun k => v0 (ix2 p k)) (fun o k => v2 (ix2 k o)) (fun o => v5 (ix2 u0 o))

/-- The product plus the broadcast bias. -/
def linearBlock : FVec Ideal S256x2048 .f32 :=
  addf (matmul dot_S256x2048_S2048x2048_S256x2048_1_0_0_1_n_n none (truncf .bf16 v0 bitsLt_bf16_f32)
      (shapeCast S2048x2048 v2 shapeCasts_S2048x2048_S2048x2048) (constant S256x2048 .f32 0x00000000#32))
    (broadcastTo S256x2048 (shapeCast S1x2048 v5 shapeCasts_S1x2048_S1x2048) broadcasts_S1x2048_S256x2048)

/-- The same in groups: [256, 32, 64]. -/
def grouped : FVec Ideal S256x32x64 .f32 := shapeCast S256x32x64 (linearBlock v0 v2 v5) shapeCasts_S256x2048_S256x32x64

/-- Each group's mean, with a unit last axis. -/
def meanBlock : FVec Ideal S256x32x1 .f32 :=
  divf (shapeCast S256x32x1 (multiReduction .add [2] S256x32 (grouped v0 v2 v5) 0x00000000#32 reduces_S256x32x64_S256x32 (.inl rfl) rfl)
      shapeCasts_S256x32_S256x32x1) (broadcast S256x32x1 (Scalar.ofBits .f32 0x42800000#32))

/-- Each group's mean of squares. -/
def meanSqBlock : FVec Ideal S256x32x1 .f32 :=
  divf (shapeCast S256x32x1 (multiReduction .add [2] S256x32 (mulf (grouped v0 v2 v5) (grouped v0 v2 v5)) 0x00000000#32
      reduces_S256x32x64_S256x32 (.inl rfl) rfl) shapeCasts_S256x32_S256x32x1) (broadcast S256x32x1 (Scalar.ofBits .f32 0x42800000#32))

/-- Each group's factor. -/
def invStdBlock : FVec Ideal S256x32x1 .f32 :=
  rsqrt (addf (subf (meanSqBlock v0 v2 v5) (mulf (meanBlock v0 v2 v5) (meanBlock v0 v2 v5)))
    (broadcast S256x32x1 (Scalar.ofBits .f32 0x3727C5AC#32)))

/-- Centred and scaled, back as [256, 2048]. -/
def normalizedBlock : FVec Ideal S256x2048 .f32 :=
  shapeCast S256x2048 (mulf (subf (grouped v0 v2 v5) (broadcastTo S256x32x64 (meanBlock v0 v2 v5) broadcasts_S256x32x1_S256x32x64))
    (broadcastTo S256x32x64 (invStdBlock v0 v2 v5) broadcasts_S256x32x1_S256x32x64)) shapeCasts_S256x32x64_S256x2048

/-- The body's value is these stages composed, then scale, shift and the clamp. -/
theorem payload_eq : k0_pay1 (F := Ideal) v0 v2 v5 v29 v33
    = minimumf (broadcast S256x2048 (Scalar.ofBits .f32 0x3F800000#32))
        (maximumf (broadcast S256x2048 (Scalar.ofBits .f32 0xBF800000#32))
          (addf (mulf (normalizedBlock v0 v2 v5)
              (broadcastTo S256x2048 (shapeCast S1x2048 v29 shapeCasts_S1x2048_S1x2048) broadcasts_S1x2048_S256x2048))
            (broadcastTo S256x2048 (shapeCast S1x2048 v33 shapeCasts_S1x2048_S1x2048) broadcasts_S1x2048_S256x2048))) := rfl

theorem linearBlock_at (p : Fin 256) (o : Fin 2048) : linearBlock v0 v2 v5 (ix2 p o) = Y v0 v2 v5 p o := by
  unfold linearBlock
  rw [addf_apply, product_at, shapeCast_self, shapeCast_self, broadcastTo_1b_ab_apply]
  rfl

theorem grouped_at (p : Fin 256) (g : Fin 32) (j : Fin 64) : grouped v0 v2 v5 (ix3 p g j) = Y v0 v2 v5 p (chan g j) := by
  unfold grouped
  rw [toGroups_at, linearBlock_at]

theorem meanBlock_at (p : Fin 256) (g : Fin 32) : meanBlock v0 v2 v5 (ix3 p g u0) = mean (Y v0 v2 v5 p) g := by
  unfold meanBlock mean
  rw [divf_apply, keepLast_at]
  exact congrArg₂ Ideal.div ((laneSum_at _ _ _ _ p g).trans (Finset.sum_congr rfl fun j _ => grouped_at v0 v2 v5 p g j)) rfl

theorem meanSqBlock_at (p : Fin 256) (g : Fin 32) : meanSqBlock v0 v2 v5 (ix3 p g u0) = meanSq (Y v0 v2 v5 p) g := by
  unfold meanSqBlock meanSq
  rw [divf_apply, keepLast_at]
  refine congrArg₂ Ideal.div ((laneSum_at _ _ _ _ p g).trans (Finset.sum_congr rfl fun j _ => ?_)) rfl
  rw [mulf_apply, grouped_at]

theorem invStdBlock_at (p : Fin 256) (g : Fin 32) : invStdBlock v0 v2 v5 (ix3 p g u0) = invStd (Y v0 v2 v5 p) g := by
  unfold invStdBlock
  show Ideal.rsqrt _ = _
  rw [addf_apply, subf_apply, mulf_apply, meanSqBlock_at, meanBlock_at, broadcast_apply]
  rfl

theorem normalizedBlock_at (p : Fin 256) (o : Fin 2048) :
    normalizedBlock v0 v2 v5 (ix2 p o)
      = (Y v0 v2 v5 p o - mean (Y v0 v2 v5 p) (group o)) * invStd (Y v0 v2 v5 p) (group o) := by
  unfold normalizedBlock
  rw [fromGroups_at, mulf_apply, subf_apply, grouped_at, chan_group, spreadLast_at, meanBlock_at, spreadLast_at, invStdBlock_at]

/-- ENTRY `(p, o)` OF THE BODY'S VALUE: the specified function of row `p` of the block. -/
theorem payload_at (p : Fin 256) (o : Fin 2048) :
    k0_pay1 (F := Ideal) v0 v2 v5 v29 v33 (ix2 p o)
      = normClamp (Y v0 v2 v5 p) (fun o => v29 (ix2 u0 o)) (fun o => v33 (ix2 u0 o)) o := by
  rw [payload_eq, minimumf_apply, maximumf_apply, addf_apply, mulf_apply, normalizedBlock_at, broadcast_apply, broadcast_apply,
    shapeCast_self, shapeCast_self, broadcastTo_1b_ab_apply, broadcastTo_1b_ab_apply]
  rfl

end Cert.KernelIdeal.BlockValue

end
-- ==== Proof.ArrayValue.lean ====
/-
  The kernel's result array after the run is the specified function of the argument arrays.

  The grid has 16 points; point `t` stages rows `256 t … 256 t + 255` of `x` and of the result, and the whole of
  the other four operands. Three of those are written by the host lines before the call: the weight transposed
  (and narrowed, the identity on extended reals), so its entry `(k, o)` is `w[o, k]`; the bias, scale and shift
  recast as [1, 2048] rows. So the blocks the body reads at point `t` are row `256 t + p` of `x`, `wᵀ` and the three
  rows, and what it writes back at block entry `(p, o)` is the specified function at `(256 t + p, o)`: block `t` of it.
  The 16 blocks tile the array (row `r` lies in block `r / 256`), so the array ends as that function everywhere.
-/
import proofs.«162899_j1580547965295_1_alg».proof.Proof.Gen.KernelIdeal.Value
import proofs.«162899_j1580547965295_1_alg».proof.Proof.BlockValue
import Idealize.ShloMosaic.Lib.StableHlo.Run

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.GroupNormSpec Idealize.ShloMosaic.StableHlo
open Idealize.ShloMosaic.Pipeline (Dat)

/-! ## One block entry from the blocks' entries -/

/-- If a block of `x` holds row `i 0` of `X` in its row `y 0`, the weight block is `W` transposed and the three rows
    are `B`, `Γ`, `Β`, then the body's value at `y` is the specified function of `X, W, B, Γ, Β` at `(i 0, y 1)`. -/
theorem entry_of_blocks (x0 : FVec Ideal S256x2048 .f32) (x1 : FVec Ideal S2048x2048 .bf16) (x2 x3 x4 : FVec Ideal S1x2048 .f32)
    (X : S4096x2048.Idx → EReal) (W : S2048x2048.Idx → EReal) (B Γ Β : S2048.Idx → EReal)
    (y : S256x2048.Idx) (i : S4096x2048.Idx)
    (h0 : ∀ k : Fin 2048, x0 (ix2 (y 0) k) = X (ix2 (i 0) k))
    (h1 : ∀ k o : Fin 2048, x1 (ix2 k o) = W (ix2 o k))
    (h2 : ∀ o : Fin 2048, x2 (ix2 BlockValue.u0 o) = B (ix1 o))
    (h3 : ∀ o : Fin 2048, x3 (ix2 BlockValue.u0 o) = Γ (ix1 o))
    (h4 : ∀ o : Fin 2048, x4 (ix2 BlockValue.u0 o) = Β (ix1 o))
    (hi : (i 1).val = (y 1).val) :
    k0_pay1 (F := Ideal) x0 x1 x2 x3 x4 y = result X W B Γ Β i := by
  obtain ⟨p, o, rfl⟩ : ∃ (p : Fin 256) (o : Fin 2048), y = ix2 p o := ⟨y 0, y 1, eq_ix2 y⟩
  have e1 : i 1 = o := Fin.ext hi
  have a0 : (fun k => x0 (ix2 p k)) = fun k => X (ix2 (i 0) k) := funext h0
  have a1 : (fun o k => x1 (ix2 k o)) = fun o k => W (ix2 o k) := funext fun o => funext fun k => h1 k o
  have a2 : (fun o => x2 (ix2 BlockValue.u0 o)) = fun o => B (ix1 o) := funext h2
  have a3 : (fun o => x3 (ix2 BlockValue.u0 o)) = fun o => Γ (ix1 o) := funext h3
  have a4 : (fun o => x4 (ix2 BlockValue.u0 o)) = fun o => Β (ix1 o) := funext h4
  rw [BlockValue.payload_at]
  show normClamp (linear (fun k => x0 (ix2 p k)) (fun o k => x1 (ix2 k o)) (fun o => x2 (ix2 BlockValue.u0 o)))
      (fun o => x3 (ix2 BlockValue.u0 o)) (fun o => x4 (ix2 BlockValue.u0 o)) o
    = normClamp (linear (fun k => X (ix2 (i 0) k)) (fun o k => W (ix2 o k)) (fun o => B (ix1 o)))
      (fun o => Γ (ix1 o)) (fun o => Β (ix1 o)) (i 1)
  rw [a0, a1, a2, a3, a4, e1]

variable (m : (ℓ : Loc nD τ sig) → Buf (Elt Ideal) ℓ) (ρ : Dev nD → PrngReg)

/-! ## The operands the host lines write before the call -/

/-- The weight operand is the transposed weight argument (the narrowing is the identity here). -/
theorem weightWindow (c : Dev nD) : (V m c main_v1 : S2048x2048.Idx → EReal)
    = truncf (F := Ideal) .bf16 (transpose S2048x2048 [1, 0] (m ((c : Thread nD τ).loc main_arg1)) transposes_S2048x2048_S2048x2048_1_0) bitsLt_bf16_f32 := by
  dsimp only [Gen.V, Gen.hostOps0]
  after_results

/-- The bias operand is the bias argument as a [1, 2048] row. -/
theorem biasWindow (c : Dev nD) : (V m c main_v2 : S1x2048.Idx → EReal)
    = shapeCast S1x2048 (m ((c : Thread nD τ).loc main_arg2)) shapeCasts_S2048_S1x2048 := by
  dsimp only [Gen.V, Gen.hostOps0]
  after_results
  rfl

/-- The scale operand likewise. -/
theorem scaleWindow (c : Dev nD) : (V m c main_v3 : S1x2048.Idx → EReal)
    = shapeCast S1x2048 (m ((c : Thread nD τ).loc main_arg3)) shapeCasts_S2048_S1x2048 := by
  dsimp only [Gen.V, Gen.hostOps0]
  after_results
  rfl

/-- The shift operand likewise. -/
theorem shiftWindow (c : Dev nD) : (V m c main_v4 : S1x2048.Idx → EReal)
    = shapeCast S1x2048 (m ((c : Thread nD τ).loc main_arg4)) shapeCasts_S2048_S1x2048 := by
  dsimp only [Gen.V, Gen.hostOps0]
  after_results
  rfl

/-! ## The blocks at a grid point -/

/-- The printed index maps over the 16 points: `x` and the result move down one block of rows per point; the
    other four operands stay at block (0, 0). -/
theorem idx_facts : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Row `j 0` of `x`'s block at point `t` is the row of the argument that the result's block has there. -/
theorem xBlock_row (c : Dev nD) (t : Fin cfg0.N) (j : S256x2048.Idx) (k : Fin 2048) :
    iblk m c 0 t (ix2 (j 0) k) = m ((c : Thread nD τ).loc main_arg0) (ix2 ((((cfg0.win 5).blk t).view.emb j) 0) k) := by
  obtain ⟨e0, e1, e2, e3, -⟩ := idx_facts t
  show V m c main_arg0 (((cfg0.win 0).blk t).view.emb (ix2 (j 0) k)) = _
  rw [V_main_arg0]
  refine congrArg _ (funext fun a => Fin.ext ?_)
  match a with
  | ⟨0, _⟩ =>
    show win0_0.index t (0 : Fin 2) * 256 + 1 * (j 0).val = win0_5.index t (0 : Fin 2) * 256 + 1 * (j 0).val
    rw [e0, e2]
  | ⟨1, _⟩ =>
    show win0_0.index t (1 : Fin 2) * 2048 + 1 * k.val = k.val
    rw [e1]; omega

/-- The weight block at any point, at `(k, o)`, is the weight argument at `(o, k)`. -/
theorem wBlock_entry (c : Dev nD) (t : Fin cfg0.N) (k o : Fin 2048) :
    iblk m c 1 t (ix2 k o) = m ((c : Thread nD τ).loc main_arg1) (ix2 o k) := by
  obtain ⟨-, -, -, -, e4, e5, -⟩ := idx_facts t
  have he : ((cfg0.win 1).blk t).view.emb (ix2 k o) = ix2 k o := funext fun a => Fin.ext (by
    match a with
    | ⟨0, _⟩ => show win0_1.index t (0 : Fin 2) * 2048 + 1 * k.val = k.val; rw [e4]; omega
    | ⟨1, _⟩ => show win0_1.index t (1 : Fin 2) * 2048 + 1 * o.val = o.val; rw [e5]; omega)
  show V m c main_v1 (((cfg0.win 1).blk t).view.emb (ix2 k o)) = _
  rw [he, weightWindow, truncf_apply, transpose_ix2_apply]

/-- The bias row at any point is the bias argument. -/
theorem bBlock_entry (c : Dev nD) (t : Fin cfg0.N) (o : Fin 2048) :
    iblk m c 2 t (ix2 BlockValue.u0 o) = m ((c : Thread nD τ).loc main_arg2) (ix1 o) := by
  obtain ⟨-, -, -, -, -, -, e6, e7, -⟩ := idx_facts t
  have he : ((cfg0.win 2).blk t).view.emb (ix2 BlockValue.u0 o) = ix2 BlockValue.u0 o := funext fun a => Fin.ext (by
    match a with
    | ⟨0, _⟩ => show win0_2.index t (0 : Fin 2) * 1 + 1 * 0 = 0; rw [e6]
    | ⟨1, _⟩ => show win0_2.index t (1 : Fin 2) * 2048 + 1 * o.val = o.val; rw [e7]; omega)
  show V m c main_v2 (((cfg0.win 2).blk t).view.emb (ix2 BlockValue.u0 o)) = _
  rw [he, biasWindow, shapeCast_a_1a_apply]

/-- The scale row at any point is the scale argument. -/
theorem gBlock_entry (c : Dev nD) (t : Fin cfg0.N) (o : Fin 2048) :
    iblk m c 3 t (ix2 BlockValue.u0 o) = m ((c : Thread nD τ).loc main_arg3) (ix1 o) := by
  obtain ⟨-, -, -, -, -, -, -, -, e8, e9, -⟩ := idx_facts t
  have he : ((cfg0.win 3).blk t).view.emb (ix2 BlockValue.u0 o) = ix2 BlockValue.u0 o := funext fun a => Fin.ext (by
    match a with
    | ⟨0, _⟩ => show win0_3.index t (0 : Fin 2) * 1 + 1 * 0 = 0; rw [e8]
    | ⟨1, _⟩ => show win0_3.index t (1 : Fin 2) * 2048 + 1 * o.val = o.val; rw [e9]; omega)
  show V m c main_v3 (((cfg0.win 3).blk t).view.emb (ix2 BlockValue.u0 o)) = _
  rw [he, scaleWindow, shapeCast_a_1a_apply]

/-- The shift row at any point is the shift argument. -/
theorem sBlock_entry (c : Dev nD) (t : Fin cfg0.N) (o : Fin 2048) :
    iblk m c 4 t (ix2 BlockValue.u0 o) = m ((c : Thread nD τ).loc main_arg4) (ix1 o) := by
  obtain ⟨-, -, -, -, -, -, -, -, -, -, e10, e11⟩ := idx_facts t
  have he : ((cfg0.win 4).blk t).view.emb (ix2 BlockValue.u0 o) = ix2 BlockValue.u0 o := funext fun a => Fin.ext (by
    match a with
    | ⟨0, _⟩ => show win0_4.index t (0 : Fin 2) * 1 + 1 * 0 = 0; rw [e10]
    | ⟨1, _⟩ => show win0_4.index t (1 : Fin 2) * 2048 + 1 * o.val = o.val; rw [e11]; omega)
  show V m c main_v4 (((cfg0.win 4).blk t).view.emb (ix2 BlockValue.u0 o)) = _
  rw [he, shiftWindow, shapeCast_a_1a_apply]

/-! ## From the blocks to the array -/

/-- What the result array ends holding: the specified function of the five arguments as launched. -/
abbrev final (c : Dev nD) : S4096x2048.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4))

theorem zeroOffset : (![0, 0] : Fin 2 → Nat) = fun _ => 0 := funext fun a => by fin_cases a <;> rfl

/-- WHAT POINT `t` WRITES BACK is block `t` of `final`. -/
theorem flushed_eq (c : Dev nD) (t : Fin cfg0.N) :
    (dats m 0 c).flushed 5 t = ((cfg0.win 5).blk t).view.read (Elt Ideal) (final m c) := by
  rw [flushed5]
  unfold out0_5
  rw [View.canon_unit_zero zeroOffset]
  simp only [View.ld_unit_zero (S := S256x2048) zeroOffset, View.ld_unit_zero (S := S2048x2048) zeroOffset,
    View.ld_unit_zero (S := S1x2048) zeroOffset]
  obtain ⟨-, -, -, e3, -⟩ := idx_facts t
  funext j
  show k0_pay1 (F := Ideal) (iblk m c 0 t) (iblk m c 1 t) (iblk m c 2 t) (iblk m c 3 t) (iblk m c 4 t) j
    = final m c (((cfg0.win 5).blk t).view.emb j)
  exact entry_of_blocks (iblk m c 0 t) (iblk m c 1 t) (iblk m c 2 t) (iblk m c 3 t) (iblk m c 4 t) _ _ _ _ _ j
    (((cfg0.win 5).blk t).view.emb j) (xBlock_row m c t j) (wBlock_entry m c t) (bBlock_entry m c t) (gBlock_entry m c t)
    (sBlock_entry m c t) (by
      show win0_5.index t (1 : Fin 2) * 2048 + 1 * (j 1).val = (j 1).val
      rw [e3]; omega)

/-- An index of the array is in point `t`'s block iff each coordinate is in the block's range on its axis. -/
theorem mem_block (t : Fin cfg0.N) (i : S4096x2048.Idx) :
    i ∈ ((cfg0.win 5).blk t).view.set ↔ ∀ a : Fin 2, win0_5.index t a * S256x2048.size a ≤ (i a).val ∧ (i a).val < win0_5.index t a * S256x2048.size a + S256x2048.size a := by
  show i ∈ ((View.whole main_v5).slice (win0_5.rect t)).set ↔ _
  rw [View.set_slice_whole, Rect.mem_set_unit]
  exact Iff.rfl

/-- Row `r` lies in the block of point `r / 256`: the blocks cover the array. -/
theorem covered (i : S4096x2048.Idx) : ∃ t : Fin cfg0.N, (cfg0.win 5).flush t = true ∧ i ∈ ((cfg0.win 5).blk t).view.set := by
  have hN : cfg0.N = 16 := N_0
  have hi0 : (i 0).val < 4096 := (i 0).isLt
  have hi1 : (i 1).val < 2048 := (i 1).isLt
  have ht : (i 0).val / 256 < cfg0.N := by rw [hN]; omega
  refine ⟨⟨(i 0).val / 256, ht⟩, flush0_5 _, ?_⟩
  obtain ⟨-, -, e2, e3, -⟩ := idx_facts ⟨(i 0).val / 256, ht⟩
  rw [mem_block]
  intro a
  match a with
  | ⟨0, _⟩ =>
    show win0_5.index ⟨(i 0).val / 256, ht⟩ (0 : Fin 2) * 256 ≤ (i 0).val ∧ (i 0).val < win0_5.index ⟨(i 0).val / 256, ht⟩ (0 : Fin 2) * 256 + 256
    rw [e2]
    show (i 0).val / 256 * 256 ≤ (i 0).val ∧ (i 0).val < (i 0).val / 256 * 256 + 256
    omega
  | ⟨1, _⟩ =>
    show win0_5.index ⟨(i 0).val / 256, ht⟩ (1 : Fin 2) * 2048 ≤ (i 1).val ∧ (i 1).val < win0_5.index ⟨(i 0).val / 256, ht⟩ (1 : Fin 2) * 2048 + 2048
    rw [e3]
    omega

/-- THE ARRAY after the run. -/
theorem array_eq (c : Dev nD) : (dats m 0 c).arrAt 5 cfg0.N = final m c :=
  (dats m 0 c).arrAt_eq_of_cover 5 (final m c) (fun t _ => flushed_eq m c t) covered

/-- The kernel's run with its result named: the specified function of the arguments, which end unchanged. -/
theorem run : θ_run defs (onTc (τ := τ) (main (F := Ideal))) ⟨m, fun _ => 0, ρ⟩ fun r => ∀ c : Dev nD,
      r.2.mem ((c : Thread nD τ).loc main_v5) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (array_eq m c), (h c).2⟩) (run_blocks m ρ)

end Cert.KernelIdeal.ArrayValue

end
-- ==== Proof.RefValue.lean ====
/-
  The reference program computes the specified function.

  Its run is read one operation at a time at an index. With `Y r` the linear layer's row `r`:
  the `dot_general` plus the broadcast bias at `(r, o)` is `Y r o`; reshaped to [4096, 32, 64] the entry
  `(r, g, j)` is `Y r (g · 64 + j)`; the two sums over the last axis start from the zero word, which adds nothing;
  divided by the word of 64 they are the group's mean and mean of squares; the reciprocal square root of
  their difference plus ε is the group's factor; the product `(y − μ) · factor` reshaped back to [4096, 2048] reads
  group `o / 64` at position `o % 64`, which is channel `o` again; then scale, shift and the clamp.
-/
import proofs.«162899_j1580547965295_1_alg».proof.Proof.Gen.ReferenceIdeal.Read
import proofs.«162899_j1580547965295_1_alg».proof.Proof.Spec
import Idealize.ShloMosaic.PureOps.Ideal.Laws

noncomputable section

namespace Cert.ReferenceIdeal.RefValue

open Cert.ReferenceIdeal Cert.ReferenceIdeal.Read Idealize.ShloMosaic Idealize.ShloMosaic.ValueIdx Cert.GroupNormSpec

variable (x0 : (⟨S4096x2048, .f32⟩ : BufTy).Contents (Elt Ideal)) (x1 : (⟨S2048x2048, .f32⟩ : BufTy).Contents (Elt Ideal))
  (x2 x3 x4 : (⟨S2048, .f32⟩ : BufTy).Contents (Elt Ideal))

/-- Row `r` of the linear layer's output, from the reference's arguments. -/
abbrev Y (r : Fin 4096) : Fin 2048 → EReal :=
  linear (fun k => x0 (ix2 r k)) (fun o k => x1 (ix2 o k)) (fun o => x2 (ix1 o))

/-- The only index of the [4096, 32, 1] arrays' last axis. -/
abbrev u0 : Fin 1 := ⟨0, Nat.one_pos⟩

/-- `x · wᵀ + b` at `(r, o)`: the contraction runs over the second axis of both operands. -/
theorem linear_at (r : Fin 4096) (o : Fin 2048) : val_main_v3 (F := Ideal) x0 x1 x2 (ix2 r o) = Y x0 x1 x2 r o := by
  have hl : ∀ k : Fin 2048, lidx_main_v0 (ix2 r o) k = ix2 r k := fun k =>
    funext fun a => Fin.ext (by match a with | ⟨0, _⟩ => rfl | ⟨1, _⟩ => rfl)
  have hr : ∀ k : Fin 2048, ridx_main_v0 (ix2 r o) k = ix2 o k := fun k =>
    funext fun a => Fin.ext (by match a with | ⟨0, _⟩ => rfl | ⟨1, _⟩ => rfl)
  have hb : idx_main_v1 (idx_main_v2 (ix2 r o)) = ix1 o :=
    funext fun a => Fin.ext (by match a with | ⟨0, _⟩ => rfl)
  rw [val_main_v3_apply, val_main_v0_apply, val_main_v2_apply, val_main_v1_apply, hb]
  simp only [hl, hr, Ideal.addf_def]
  rfl

/-- Reshaped into groups: entry `(r, g, j)` is channel `g · 64 + j` of row `r`. -/
theorem grouped_at (r : Fin 4096) (g : Fin 32) (j : Fin 64) :
    val_main_v4 (F := Ideal) x0 x1 x2 (ix3 r g j) = Y x0 x1 x2 r (chan g j) := by
  have hi : idx_main_v4 (ix3 r g j) = ix2 r (chan g j) := funext fun a => Fin.ext (by
    have hr := r.isLt; have hg := g.isLt; have hj := j.isLt
    match a with
    | ⟨0, _⟩ => show ((r.val * 32 + g.val) * 64 + j.val) / 2048 = r.val; omega
    | ⟨1, _⟩ => show ((r.val * 32 + g.val) * 64 + j.val) % 2048 = g.val * 64 + j.val; omega)
  rw [val_main_v4_apply, hi, linear_at]

/-- A group's sum: the zero word it starts from adds nothing. -/
theorem groupSum_at (r : Fin 4096) (g : Fin 32) :
    val_main_v5 (F := Ideal) x0 x1 x2 (ix2 r g) = ∑ j : Fin 64, Y x0 x1 x2 r (chan g j) := by
  rw [val_main_v5_apply, val_main_cst_apply, Ideal.ofBits_def, Ideal.ofBits_zero_f32, zero_add]
  refine Finset.sum_congr rfl fun j _ => ?_
  have hi : idx_main_v5 (ix2 r g) j = ix3 r g j :=
    funext fun a => Fin.ext (by match a with | ⟨0, _⟩ => rfl | ⟨1, _⟩ => rfl | ⟨2, _⟩ => rfl)
  rw [hi, grouped_at]

/-- A group's sum of squares likewise. -/
theorem groupSumSq_at (r : Fin 4096) (g : Fin 32) :
    val_main_v10 (F := Ideal) x0 x1 x2 (ix2 r g) = ∑ j : Fin 64, Y x0 x1 x2 r (chan g j) * Y x0 x1 x2 r (chan g j) := by
  rw [val_main_v10_apply, val_main_cst_1_apply, Ideal.ofBits_def, Ideal.ofBits_zero_f32, zero_add]
  refine Finset.sum_congr rfl fun j _ => ?_
  have hi : idx_main_v10 (ix2 r g) j = ix3 r g j :=
    funext fun a => Fin.ext (by match a with | ⟨0, _⟩ => rfl | ⟨1, _⟩ => rfl | ⟨2, _⟩ => rfl)
  rw [hi, val_main_v9_apply, grouped_at, Ideal.mulf_def]

/-- The group's mean, kept with a unit last axis. -/
theorem mean_at (r : Fin 4096) (g : Fin 32) :
    val_main_v8 (F := Ideal) x0 x1 x2 (ix3 r g u0) = mean (Y x0 x1 x2 r) g := by
  have hi : idx_main_v6 (ix3 r g u0) = ix2 r g :=
    funext fun a => Fin.ext (by match a with | ⟨0, _⟩ => rfl | ⟨1, _⟩ => rfl)
  rw [val_main_v8_apply, val_main_v6_apply, hi, groupSum_at, val_main_v7_apply, val_main_cst_0_apply,
    Ideal.hostDivf_def, Ideal.ofBits_def]
  rfl

/-- The group's mean of squares. -/
theorem meanSq_at (r : Fin 4096) (g : Fin 32) :
    val_main_v13 (F := Ideal) x0 x1 x2 (ix3 r g u0) = meanSq (Y x0 x1 x2 r) g := by
  have hi : idx_main_v11 (ix3 r g u0) = ix2 r g :=
    funext fun a => Fin.ext (by match a with | ⟨0, _⟩ => rfl | ⟨1, _⟩ => rfl)
  rw [val_main_v13_apply, val_main_v11_apply, hi, groupSumSq_at, val_main_v12_apply, val_main_cst_2_apply,
    Ideal.hostDivf_def, Ideal.ofBits_def]
  rfl

/-- The group's factor `rsqrt (E[y²] − E[y]² + ε)`. -/
theorem invStd_at (r : Fin 4096) (g : Fin 32) :
    val_main_v20 (F := Ideal) x0 x1 x2 (ix3 r g u0) = invStd (Y x0 x1 x2 r) g := by
  rw [val_main_v20_apply, val_main_v19_apply, val_main_v15_apply, val_main_v14_apply, meanSq_at, mean_at,
    val_main_v18_apply, val_main_cst_3_apply, Ideal.hostUnary_rsqrt_def, Ideal.addf_def, Ideal.subf_def,
    Ideal.mulf_def, Ideal.ofBits_def]
  rfl

/-- Centred and scaled, still grouped. -/
theorem normalized_grouped_at (r : Fin 4096) (g : Fin 32) (j : Fin 64) :
    val_main_v22 (F := Ideal) x0 x1 x2 (ix3 r g j)
      = (Y x0 x1 x2 r (chan g j) - mean (Y x0 x1 x2 r) g) * invStd (Y x0 x1 x2 r) g := by
  have h16 : idx_main_v16 (ix3 r g j) = ix3 r g u0 :=
    funext fun a => Fin.ext (by match a with | ⟨0, _⟩ => rfl | ⟨1, _⟩ => rfl | ⟨2, _⟩ => rfl)
  have h21 : idx_main_v21 (ix3 r g j) = ix3 r g u0 :=
    funext fun a => Fin.ext (by match a with | ⟨0, _⟩ => rfl | ⟨1, _⟩ => rfl | ⟨2, _⟩ => rfl)
  rw [val_main_v22_apply, val_main_v17_apply, grouped_at, val_main_v16_apply, h16, mean_at, val_main_v21_apply, h21,
    invStd_at, Ideal.mulf_def, Ideal.subf_def]

/-- Reshaped back: `(r, o)` reads group `o / 64` at position `o % 64`, which is channel `o`. -/
theorem normalized_at (r : Fin 4096) (o : Fin 2048) :
    val_main_v23 (F := Ideal) x0 x1 x2 (ix2 r o)
      = (Y x0 x1 x2 r o - mean (Y x0 x1 x2 r) (group o)) * invStd (Y x0 x1 x2 r) (group o) := by
  have hi : idx_main_v23 (ix2 r o) = ix3 r (group o) ⟨o.val % 64, Nat.mod_lt _ (by decide)⟩ := funext fun a => Fin.ext (by
    have hr := r.isLt; have ho := o.isLt
    match a with
    | ⟨0, _⟩ => show (r.val * 2048 + o.val) / 2048 = r.val; omega
    | ⟨1, _⟩ => show (r.val * 2048 + o.val) / 64 % 32 = o.val / 64; omega
    | ⟨2, _⟩ => show (r.val * 2048 + o.val) % 64 = o.val % 64; omega)
  rw [val_main_v23_apply, hi, normalized_grouped_at, chan_group]

/-- Scale, shift and clamp: the reference's result at `(r, o)`. -/
theorem clamped_at (r : Fin 4096) (o : Fin 2048) :
    val_main_v30 (F := Ideal) x0 x1 x2 x3 x4 (ix2 r o)
      = normClamp (Y x0 x1 x2 r) (fun o => x3 (ix1 o)) (fun o => x4 (ix1 o)) o := by
  have hg : idx_main_v24 (idx_main_v25 (ix2 r o)) = ix1 o :=
    funext fun a => Fin.ext (by match a with | ⟨0, _⟩ => rfl)
  have hb : idx_main_v27 (idx_main_v28 (ix2 r o)) = ix1 o :=
    funext fun a => Fin.ext (by match a with | ⟨0, _⟩ => rfl)
  rw [val_main_v30_apply, val_main_call0_v4_apply, val_main_call0_v3_apply, val_main_cst_5_apply,
    val_main_call0_v2_apply, val_main_call0_v1_apply, val_main_call0_v0_apply, val_main_cst_4_apply,
    val_main_v29_apply, val_main_v26_apply, normalized_at, val_main_v25_apply, val_main_v24_apply, hg,
    val_main_v28_apply, val_main_v27_apply, hb, Ideal.minimumf_def, Ideal.maximumf_def, Ideal.addf_def,
    Ideal.mulf_def, Ideal.ofBits_def, Ideal.ofBits_def]
  rfl

/-- The reference's last stage IS the specified function of its arguments. -/
theorem reference_eq : val_main_v30 (F := Ideal) x0 x1 x2 x3 x4 = result x0 x1 x2 x3 x4 := by
  funext i
  obtain ⟨r, o, rfl⟩ : ∃ (r : Fin 4096) (o : Fin 2048), i = ix2 r o := ⟨i 0, i 1, eq_ix2 i⟩
  rw [clamped_at]
  rfl

end Cert.ReferenceIdeal.RefValue

end
-- ==== Proof.lean ====
/-
  A linear layer followed by a group normalization and a clamp, as a row-tiled kernel against its jnp reference.

  Both programs compute, for every batch row `r` and output channel `o`,
  `min 1 (max (−1) ((y[o] − μ) · rsqrt (E[y²] − μ² + ε) · γ[o] + β[o]))` where `y = x[r,:] · wᵀ + b`, and `μ`, `E[y²]` are the
  mean and mean of squares of `y` over the group of 64 consecutive channels holding `o` (Proof/Spec.lean).
  The kernel takes 256 rows per grid point, multiplies by a weight the host lines transposed beforehand, and
  normalizes each row in [256, 32, 64] form (Proof/BlockValue.lean: one block entry; Proof/ArrayValue.lean: the
  sixteen blocks tile the result). The reference contracts `x` with `w` over their second axes and does the same
  steps on the whole [4096, 2048] array (Proof/RefValue.lean). On the extended reals the two are the same
  function term by term: the narrowing to bf16 is the identity, the matrix unit's product into a zero accumulator
  and the host's contraction are the same sum, a lane sum and a host sum from a zero word are the same sum, and
  the four literals are the same words on both sides. No algebraic law beyond `0 + s = s` is used, so the
  finiteness of the inputs is never opened.

  The three frames are the generated ones (the reference's is its generated run with the result dropped); the
  idealization rewrote nothing, so that conjunct is `True`.
-/
import proofs.«162899_j1580547965295_1_alg».proof.Defs
import proofs.«162899_j1580547965295_1_alg».proof.Proof.Gen.Kernel
import proofs.«162899_j1580547965295_1_alg».proof.Proof.Gen.Kernel.Skeleton
import proofs.«162899_j1580547965295_1_alg».proof.Proof.Gen.Kernel.Launch
import proofs.«162899_j1580547965295_1_alg».proof.Proof.Gen.Kernel.Points
import proofs.«162899_j1580547965295_1_alg».proof.Proof.Gen.Kernel.Frame
import proofs.«162899_j1580547965295_1_alg».proof.Proof.Gen.KernelIdeal
import proofs.«162899_j1580547965295_1_alg».proof.Proof.Gen.KernelIdeal.Skeleton
import proofs.«162899_j1580547965295_1_alg».proof.Proof.Gen.KernelIdeal.Launch
import proofs.«162899_j1580547965295_1_alg».proof.Proof.Gen.KernelIdeal.Points
import proofs.«162899_j1580547965295_1_alg».proof.Proof.Gen.KernelIdeal.Frame
import proofs.«162899_j1580547965295_1_alg».proof.Proof.Gen.ReferenceIdeal
import proofs.«162899_j1580547965295_1_alg».proof.Proof.Gen.Pre_finite_inputs
import proofs.«162899_j1580547965295_1_alg».proof.Proof.Gen.KernelIdeal.Value
import proofs.«162899_j1580547965295_1_alg».proof.Proof.Gen.ReferenceIdeal.Run
import proofs.«162899_j1580547965295_1_alg».proof.Proof.Gen.ReferenceIdeal.Read
import proofs.«162899_j1580547965295_1_alg».proof.Proof.ArrayValue
import proofs.«162899_j1580547965295_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, the kernel's result array and the reference's result both end
    as the specified function of those arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.reference_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
